-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v19) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x512 : Shape := ⟨2, ![32768, 512]⟩
abbrev S32768x1 : Shape := ⟨2, ![32768, 1]⟩
abbrev S2048x512 : Shape := ⟨2, ![2048, 512]⟩
abbrev S_ : Shape := ⟨0, ![]⟩

class Facts : Prop where
  bcast_S_S32768x512 : S_.BroadcastsInDim S32768x512 (![] : Fin 0 → Fin S32768x512.rank)
  reducesTo_S32768x512_S_d0_1 : S32768x512.ReducesTo [0, 1] S_
  h_S_ : 0 < S_.numel
  bcast_S_S32768x1 : S_.BroadcastsInDim S32768x1 (![] : Fin 0 → Fin S32768x1.rank)
  reducesTo_S32768x1_S_d0_1 : S32768x1.ReducesTo [0, 1] S_
  bcast_S_S2048x512 : S_.BroadcastsInDim S2048x512 (![] : Fin 0 → Fin S2048x512.rank)
  reducesTo_S2048x512_S_d0_1 : S2048x512.ReducesTo [0, 1] S_

variable [Facts]

def fn {F : FTy → Type} [FloatOps F] (main_arg0 : FVec F S32768x512 .f32) (main_arg1 : FVec F S32768x1 .f32) (main_arg2 : FVec F S2048x512 .f32) : IVec S_ 1 :=
  let main_v0 : FVec F S32768x512 .f32 := Host.absf main_arg0
  let main_cst : FVec F S_ .f32 := constant S_ .f32 0x7F800000#32
  let main_v1 : FVec F S32768x512 .f32 := broadcastInDim S32768x512 ![] bcast_S_S32768x512 main_cst
  let main_v2 : IVec S32768x512 1 := cmpf .olt main_v0 main_v1
  let main_c : IVec S_ 1 := constantI S_ 1 1#1
  let main_v3 : IVec S_ 1 := (fun x v => Host.reduce IntOp.andi x v reducesTo_S32768x512_S_d0_1 h_S_) main_v2 main_c
  let main_v4 : FVec F S32768x1 .f32 := Host.absf main_arg1
  let main_cst_0 : FVec F S_ .f32 := constant S_ .f32 0x7F800000#32
  let main_v5 : FVec F S32768x1 .f32 := broadcastInDim S32768x1 ![] bcast_S_S32768x1 main_cst_0
  let main_v6 : IVec S32768x1 1 := cmpf .olt main_v4 main_v5
  let main_c_1 : IVec S_ 1 := constantI S_ 1 1#1
  let main_v7 : IVec S_ 1 := (fun x v => Host.reduce IntOp.andi x v reducesTo_S32768x1_S_d0_1 h_S_) main_v6 main_c_1
  let main_v8 : IVec S_ 1 := andi main_v3 main_v7
  let main_v9 : FVec F S2048x512 .f32 := Host.absf main_arg2
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  main_v13
-- ==== Kernel.lean ====
abbrev S32768x512 : Shape := ⟨2, ![32768, 512]⟩
abbrev S32768x1 : Shape := ⟨2, ![32768, 1]⟩
abbrev S2048x512 : Shape := ⟨2, ![2048, 512]⟩
abbrev S1x32768x2048 : Shape := ⟨3, ![1, 32768, 2048]⟩
abbrev S1x2048 : Shape := ⟨2, ![1, 2048]⟩
abbrev S1024x512 : Shape := ⟨2, ![1024, 512]⟩
abbrev S1024x1 : Shape := ⟨2, ![1024, 1]⟩
abbrev S1x1024x1024 : Shape := ⟨3, ![1, 1024, 1024]⟩
abbrev S1x1024 : Shape := ⟨2, ![1, 1024]⟩
abbrev S1024 : Shape := ⟨1, ![1024]⟩
abbrev S1024x1024 : Shape := ⟨2, ![1024, 1024]⟩
abbrev S_ : Shape := ⟨0, ![]⟩

abbrev nBuf : Space → Nat
  | .hbm => 9
  | .vmem => 10
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S2048x512, .f32⟩
  | .hbm, ⟨3, _⟩ => ⟨S1x32768x2048, .f32⟩
  | .hbm, ⟨4, _⟩ => ⟨S1x2048, .f32⟩
  | .hbm, ⟨5, _⟩ => ⟨S_, .f32⟩
  | .hbm, ⟨6, _⟩ => ⟨S_, .f32⟩
  | .hbm, ⟨7, _⟩ => ⟨S1x2048, .f32⟩
  | .hbm, ⟨8, _⟩ => ⟨S1x2048, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x1, .f32⟩
  | .local _ .vmem, ⟨5, _⟩ => ⟨S1024x1, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1024, .f32⟩
  | .local _ .vmem, ⟨9, _⟩ => ⟨S1x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x1024_S1x1024_0_0 : ∀ a, (![0, 0] : Fin 2 → Nat) a + S1x1024.size a ≤ S1x1024.size a
  h_S1x1024 : 0 < S1x1024.numel
  inb_S1024x512_S1024x512_0_0 : ∀ a, (![0, 0] : Fin 2 → Nat) a + S1024x512.size a ≤ S1024x512.size a
  h_S1024x512 : 0 < S1024x512.numel
  reduces_S1024x512_S1024 : S1024x512.Reduces [1] S1024
  shapeCasts_S1024_S1024x1 : S1024.ShapeCasts S1024x1
  bitsLt_bf16_f32 : FTy.bits .bf16 < FTy.bits .f32
  shapeCasts_S1024_S1x1024 : S1024.ShapeCasts S1x1024
  broadcasts_S1024x1_S1024x1024 : S1024x1.Broadcasts S1024x1024
  broadcasts_S1x1024_S1024x1024 : S1x1024.Broadcasts S1024x1024
  inb_S1024x1_S1024x1_0_0 : ∀ a, (![0, 0] : Fin 2 → Nat) a + S1024x1.size a ≤ S1024x1.size a
  h_S1024x1 : 0 < S1024x1.numel
  shapeCasts_S1024x1024_S1x1024x1024 : S1024x1024.ShapeCasts S1x1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024_S1x1024 : S1x1024.ShapeCasts S1x1024
  reduces_S1024x1024_S1024 : S1024x1024.Reduces [0] S1024
  reducesTo_S32768x1_S_d0_1 : S32768x1.ReducesTo [0, 1] S_
  h_S_ : 0 < S_.numel
  bcast_S_S1x2048 : S_.BroadcastsInDim S1x2048 (![] : Fin 0 → Fin S1x2048.rank)
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S32768x512.size a
  hwx0_0 : ∀ i : grid0.Coords, EltTy.bits .f32 = 32 ∨ (Rect.block (s := S32768x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S2048x512.size a
  hwx0_1 : ∀ i : grid0.Coords, EltTy.bits .f32 = 32 ∨ (Rect.block (s := S2048x512) S1024x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S32768x1.size a
  hwx0_2 : ∀ i : grid0.Coords, EltTy.bits .f32 = 32 ∨ (Rect.block (s := S32768x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S1x32768x2048.size a
  hwx0_3 : ∀ i : grid0.Coords, EltTy.bits .f32 = 32 ∨ (Rect.block (s := S1x32768x2048) S1x1024x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x2048.size a
  hwx0_4 : ∀ i : grid0.Coords, EltTy.bits .f32 = 32 ∨ (Rect.block (s := S1x2048) S1x1024.size (cc0_transform_4 i) (hinb0_4 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x1024x1024.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S32768x512 : Shape := ⟨2, ![32768, 512]⟩
abbrev S32768x1 : Shape := ⟨2, ![32768, 1]⟩
abbrev S2048x512 : Shape := ⟨2, ![2048, 512]⟩
abbrev S_ : Shape := ⟨0, ![]⟩
abbrev S32768 : Shape := ⟨1, ![32768]⟩
abbrev S2048 : Shape := ⟨1, ![2048]⟩
abbrev S32768x2048 : Shape := ⟨2, ![32768, 2048]⟩
abbrev S1x2048 : Shape := ⟨2, ![1, 2048]⟩
abbrev S1x32768x2048 : Shape := ⟨3, ![1, 32768, 2048]⟩
abbrev S1x32768x1 : Shape := ⟨3, ![1, 32768, 1]⟩

abbrev nBuf : Space → Nat
  | .hbm => 33
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x1, .f32⟩
  | .hbm, ⟨2, _⟩ => ⟨S2048x512, .f32⟩
  | .hbm, ⟨3, _⟩ => ⟨S32768x512, .f32⟩
  | .hbm, ⟨4, _⟩ => ⟨S_, .f32⟩
  | .hbm, ⟨5, _⟩ => ⟨S32768, .f32⟩
  | .hbm, ⟨6, _⟩ => ⟨S32768x1, .f32⟩
  | .hbm, ⟨7, _⟩ => ⟨S2048x512, .f32⟩
  | .hbm, ⟨8, _⟩ => ⟨S_, .f32⟩
  | .hbm, ⟨9, _⟩ => ⟨S2048, .f32⟩
  | .hbm, ⟨10, _⟩ => ⟨S32768x2048, .f32⟩
  | .hbm, ⟨11, _⟩ => ⟨S1x2048, .f32⟩
  | .hbm, ⟨12, _⟩ => ⟨S32768x2048, .f32⟩
  | .hbm, ⟨13, _⟩ => ⟨S32768x2048, .f32⟩
  | .hbm, ⟨14, _⟩ => ⟨S32768x2048, .f32⟩
  | .hbm, ⟨15, _⟩ => ⟨S_, .f32⟩
  | .hbm, ⟨16, _⟩ => ⟨S32768x2048, .f32⟩
  | .hbm, ⟨17, _⟩ => ⟨S32768x2048, .f32⟩
  | .hbm, ⟨18, _⟩ => ⟨S32768x2048, .f32⟩
  | .hbm, ⟨19, _⟩ => ⟨S_, .f32⟩
  | .hbm, ⟨20, _⟩ => ⟨S32768x2048, .f32⟩
  | .hbm, ⟨21, _⟩ => ⟨S32768x2048, .f32⟩
  | .hbm, ⟨22, _⟩ => ⟨S32768x2048, .f32⟩
  | .hbm, ⟨23, _⟩ => ⟨S1x32768x2048, .f32⟩
  | .hbm, ⟨24, _⟩ => ⟨S1x32768x1, .f32⟩
  | .hbm, ⟨25, _⟩ => ⟨S1x32768x2048, .f32⟩
  | .hbm, ⟨26, _⟩ => ⟨S1x32768x2048, .f32⟩
  | .hbm, ⟨27, _⟩ => ⟨S_, .f32⟩
  | .hbm, ⟨28, _⟩ => ⟨S1x2048, .f32⟩
  | .hbm, ⟨29, _⟩ => ⟨S_, .f32⟩
  | .hbm, ⟨30, _⟩ => ⟨S_, .f32⟩
  | .hbm, ⟨31, _⟩ => ⟨S1x2048, .f32⟩
  | .hbm, ⟨32, _⟩ => ⟨S1x2048, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst_3 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩

abbrev nD : Nat := 1
abbrev τ : Topo := Topo.v7x

variable {F : FTy → Type} [FloatOps F]

class Facts₀ : Prop where
  reducesTo_S32768x512_S32768_d1 : S32768x512.ReducesTo [1] S32768
  h_S_ : 0 < S_.numel
  bcast_S32768_S32768x1_0 : S32768.BroadcastsInDim S32768x1 (![0] : Fin 1 → Fin S32768x1.rank)
  reducesTo_S2048x512_S2048_d1 : S2048x512.ReducesTo [1] S2048
  bcast_S2048_S1x2048_1 : S2048.BroadcastsInDim S1x2048 (![1] : Fin 1 → Fin S1x2048.rank)
  bcast_S32768x1_S32768x2048_0_1 : S32768x1.BroadcastsInDim S32768x2048 (![0, 1] : Fin 2 → Fin S32768x2048.rank)
  bcast_S1x2048_S32768x2048_0_1 : S1x2048.BroadcastsInDim S32768x2048 (![0, 1] : Fin 2 → Fin S32768x2048.rank)
  bcast_S_S32768x2048 : S_.BroadcastsInDim S32768x2048 (![] : Fin 0 → Fin S32768x2048.rank)
  bcast_S32768x2048_S1x32768x2048_1_2 : S32768x2048.BroadcastsInDim S1x32768x2048 (![1, 2] : Fin 2 → Fin S1x32768x2048.rank)
  bcast_S32768x1_S1x32768x1_1_2 : S32768x1.BroadcastsInDim S1x32768x1 (![1, 2] : Fin 2 → Fin S1x32768x1.rank)
  bcast_S1x32768x1_S1x32768x2048_0_1_2 : S1x32768x1.BroadcastsInDim S1x32768x2048 (![0, 1, 2] : Fin 3 → Fin S1x32768x2048.rank)
  reducesTo_S1x32768x2048_S1x2048_d1 : S1x32768x2048.ReducesTo [1] S1x2048
  reducesTo_S32768x1_S_d0_1 : S32768x1.ReducesTo [0, 1] S_
  bcast_S_S1x2048 : S_.BroadcastsInDim S1x2048 (![] : Fin 0 → Fin S1x2048.rank)
  dot_S32768x512_S2048x512_S32768x2048_1_1_0_0_n_n_wf : DotDims.WF S32768x512 S2048x512 S32768x2048 [1] [1] [0] [0] [] []

variable [Facts₀]

def dot_S32768x512_S2048x512_S32768x2048_1_1_0_0_n_n : DotDims S32768x512 S2048x512 S32768x2048 where
  lhsContracting := [1]
  rhsContracting := [1]
  lhsNonContracting := [0]
  rhsNonContracting := [0]
  lhsBatch := []
  rhsBatch := []
  wf := dot_S32768x512_S2048x512_S32768x2048_1_1_0_0_n_n_wf

class Facts : Prop extends Facts₀ where

variable [Facts]
-- ==== Proof.KernelPieces.lean ====
/-
  What one run of the kernel body leaves in its two output blocks, as the body's own arithmetic of the blocks it loads.

  The body has two control cases. At the first node tile of a centroid half (case A) it stores a zero block into the
  column-sum block, computes the tile of masked distances from the node, centroid and mask blocks, stores that tile as
  the distance block, reads the column-sum block back (the zeros just stored) and stores it again with the tile's
  column sums added. At every other node tile (case B) it does the same without the reset, so the column-sum block it
  reads back is what the previous tile left. Each output block is covered by its last store, so it holds that store's
  value: the distance tile in both cases, and the column-sum block read back plus the tile's column sums.
-/
import proofs.«108972_j59124519796877_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Hand

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- Case A, the distance block: the one covering store's value, the tile of masked distances of the loaded blocks. -/
theorem out_A_3 (c : Dev nD) (i : grid0.Coords) (a2 : Memref sig .tc .vmem S1024x512 .f32) (h2 : a2.IsWhole) (a3 : Memref sig .tc .vmem S1024x512 .f32) (h3 : a3.IsWhole) (a4 : Memref sig .tc .vmem S1024x1 .f32) (h4 : a4.IsWhole) (a5 : Memref sig .tc .vmem S1x1024x1024 .f32) (h5 : a5.IsWhole) (a6 : Memref sig .tc .vmem S1x1024 .f32) (h6 : a6.IsWhole) (hc : cond0_0 i)
    (x0 x1 : Vec F S1024x512 .f32) (x2 : Vec F S1024x1 .f32) :
    out0_A_3 c i a2 h2 a3 h3 a4 h4 a5 h5 a6 h6 hc x0 x1 x2 = k0_pay3 x0 x1 x2 := by
  unfold out0_A_3
  rw [View.read_writes_eq_canon _ _ _ (cover0_A_3 c i a2 h2 a3 h3 a4 h4 a5 h5 a6 h6 hc x0 x1 x2)]
  unfold kernelRun0_A
  dsimp only
  sl_unfold_words
  rw [View.canon_unit_zero hz3]
  simp only [View.readAt_eq_ld, h2.read_unread, h3.read_unread, h4.read_unread, View.ld_unit_zero (S := S1024x512) hz2,
    View.ld_unit_zero (S := S1024x1) hz2]

/-- Case A, the column-sum block: the zero block stored first is read back and the tile's column sums are added. -/
theorem out_A_4 (c : Dev nD) (i : grid0.Coords) (a2 : Memref sig .tc .vmem S1024x512 .f32) (h2 : a2.IsWhole) (a3 : Memref sig .tc .vmem S1024x512 .f32) (h3 : a3.IsWhole) (a4 : Memref sig .tc .vmem S1024x1 .f32) (h4 : a4.IsWhole) (a5 : Memref sig .tc .vmem S1x1024x1024 .f32) (h5 : a5.IsWhole) (a6 : Memref sig .tc .vmem S1x1024 .f32) (h6 : a6.IsWhole) (hc : cond0_0 i)
    (x0 x1 : Vec F S1024x512 .f32) (x2 : Vec F S1024x1 .f32) :
    out0_A_4 c i a2 h2 a3 h3 a4 h4 a5 h5 a6 h6 hc x0 x1 x2 = k0_pay4 x0 x1 x2 (k0_pay1 (F := F)) := by
  unfold out0_A_4
  rw [View.read_writes_eq_canon _ _ _ (cover0_A_4 c i a2 h2 a3 h3 a4 h4 a5 h5 a6 h6 hc x0 x1 x2)]
  unfold kernelRun0_A
  dsimp only
  sl_unfold_words
  rw [View.canon_cons_unit_zero (S := S1x1024) hz2, View.readCov_unit_zero (S := S1x1024) _ hz2]
  simp only [View.readAt_eq_ld, h2.read_unread, h3.read_unread, h4.read_unread, View.ld_unit_zero (S := S1024x512) hz2,
    View.ld_unit_zero (S := S1024x1) hz2]

/-- Case B, the distance block: as in case A. -/
theorem out_B_3 (c : Dev nD) (i : grid0.Coords) (a2 : Memref sig .tc .vmem S1024x512 .f32) (h2 : a2.IsWhole) (a3 : Memref sig .tc .vmem S1024x512 .f32) (h3 : a3.IsWhole) (a4 : Memref sig .tc .vmem S1024x1 .f32) (h4 : a4.IsWhole) (a5 : Memref sig .tc .vmem S1x1024x1024 .f32) (h5 : a5.IsWhole) (a6 : Memref sig .tc .vmem S1x1024 .f32) (h6 : a6.IsWhole) (hc : ¬cond0_0 i)
    (x0 x1 : Vec F S1024x512 .f32) (x2 : Vec F S1024x1 .f32) (xo4 : Vec F S1x1024 .f32) :
    out0_B_3 c i a2 h2 a3 h3 a4 h4 a5 h5 a6 h6 hc x0 x1 x2 xo4 = k0_pay3 x0 x1 x2 := by
  unfold out0_B_3
  rw [View.read_writes_eq_canon _ _ _ (cover0_B_3 c i a2 h2 a3 h3 a4 h4 a5 h5 a6 h6 hc x0 x1 x2 xo4)]
  unfold kernelRun0_B
  dsimp only
  sl_unfold_words
  rw [View.canon_unit_zero hz3]
  simp only [View.readAt_eq_ld, h2.read_unread, h3.read_unread, h4.read_unread, View.ld_unit_zero (S := S1024x512) hz2,
    View.ld_unit_zero (S := S1024x1) hz2]

/-- Case B, the column-sum block: what the block held on entry (`xo4`) plus the tile's column sums. -/
theorem out_B_4 (c : Dev nD) (i : grid0.Coords) (a2 : Memref sig .tc .vmem S1024x512 .f32) (h2 : a2.IsWhole) (a3 : Memref sig .tc .vmem S1024x512 .f32) (h3 : a3.IsWhole) (a4 : Memref sig .tc .vmem S1024x1 .f32) (h4 : a4.IsWhole) (a5 : Memref sig .tc .vmem S1x1024x1024 .f32) (h5 : a5.IsWhole) (a6 : Memref sig .tc .vmem S1x1024 .f32) (h6 : a6.IsWhole) (hc : ¬cond0_0 i)
    (x0 x1 : Vec F S1024x512 .f32) (x2 : Vec F S1024x1 .f32) (xo4 : Vec F S1x1024 .f32) :
    out0_B_4 c i a2 h2 a3 h3 a4 h4 a5 h5 a6 h6 hc x0 x1 x2 xo4 = k0_pay4 x0 x1 x2 xo4 := by
  unfold out0_B_4
  rw [View.read_writes_eq_canon _ _ _ (cover0_B_4 c i a2 h2 a3 h3 a4 h4 a5 h5 a6 h6 hc x0 x1 x2 xo4)]
  unfold kernelRun0_B
  dsimp only
  sl_unfold_words
  rw [View.canon_unit_zero hz2]
  simp only [View.readAt_eq_ld, h2.read_unread, h3.read_unread, h4.read_unread, h6.read_unread,
    View.ld_unit_zero (S := S1024x512) hz2, View.ld_unit_zero (S := S1024x1) hz2, View.ld_unit_zero (S := S1x1024) hz2]

end Cert.KernelIdeal.Hand

end
-- ==== Proof.Spec.lean ====
/-
  The mathematics both programs compute, stated once over the argument arrays.

  For a node row `x` and a centroid row `c` of 512 features the squared distance is taken by the Gram identity
  `|x|² + |c|² − 2·⟨x, c⟩`, floored at a small positive literal, and its square root is weighted by the node's mask
  entry: one CELL of the [1, 32768, 2048] distance array. The second result sums each centroid's column of cells over
  the 32768 nodes.

  The kernel meets a column in 32 tiles of 1024 nodes and adds tile sums one after another onto a zero block; the
  column sum over all nodes is regrouped accordingly here (`tilesum`): the sum over the first `j + 1` tiles is the sum
  over the first `j` plus tile `j`'s own, and over all 32 it is the column sum. Only commutativity and associativity of
  addition on the extended reals are used: nothing here needs an entry to be finite.
-/
import Idealize.ShloMosaic.PureOps.Ideal
import Idealize.ShloMosaic.PureOps.Ideal.Laws
import Idealize.ShloMosaic.Lib.ValueIdx

noncomputable section

namespace Cert.CentroidSpec

open Idealize.ShloMosaic Idealize.ShloMosaic.ValueIdx

/-- The factor of the inner product in the Gram identity: the literal both programs print for `2.0`. -/
abbrev gramTwo : EReal := Ideal.ofBits .f32 0x40000000#32
/-- The floor under the squared distance: the literal both programs print for `1e-12`. -/
abbrev sqFloor : EReal := Ideal.ofBits .f32 0x2B8CBCCC#32

/-- The squared norm of a feature row. -/
def sqNorm (r : Fin 512 → EReal) : EReal := ∑ d : Fin 512, r d * r d
/-- The inner product of two feature rows. -/
def rowDot (r s : Fin 512 → EReal) : EReal := ∑ d : Fin 512, r d * s d

/-- One cell: the distance of node row `xr` from centroid row `cr` by the Gram identity, floored, weighted by `w`. -/
def cell (xr cr : Fin 512 → EReal) (w : EReal) : EReal :=
  Ideal.sqrt (max ((sqNorm xr + sqNorm cr) - gramTwo * rowDot xr cr) sqFloor) * w

/-- A cell depends on its rows and weight only through their entries. -/
theorem cell_congr {xr xr' cr cr' : Fin 512 → EReal} {w w' : EReal} (hx : ∀ d, xr d = xr' d) (hc : ∀ d, cr d = cr' d)
    (hw : w = w') : cell xr cr w = cell xr' cr' w' := by
  rw [show xr = xr' from funext hx, show cr = cr' from funext hc, hw]

variable (X : (⟨2, ![32768, 512]⟩ : Shape).Idx → EReal) (M : (⟨2, ![32768, 1]⟩ : Shape).Idx → EReal)
  (C : (⟨2, ![2048, 512]⟩ : Shape).Idx → EReal)

/-- The masked distance of node `n` from centroid `k`. -/
def maskedDist (n : Fin 32768) (k : Fin 2048) : EReal :=
  cell (fun d => X (ix2 n d)) (fun d => C (ix2 k d)) (M (ix2 n (0 : Fin 1)))

/-- The first result's companion: the [1, 32768, 2048] array of masked distances. -/
def distArr : (⟨3, ![1, 32768, 2048]⟩ : Shape).Idx → EReal := fun i => maskedDist X M C (i 1) (i 2)

/-- Centroid `k`'s column of masked distances summed over all nodes. -/
def colSum (k : Fin 2048) : EReal := ∑ n : Fin 32768, maskedDist X M C n k

/-- The [1, 2048] array of column sums (before the division by the mask's total). -/
def colSumArr : (⟨2, ![1, 2048]⟩ : Shape).Idx → EReal := fun i => colSum X M C (i 1)

/-- Centroid `k`'s column as a function of a natural node number, zero past the last node. -/
def distN (k : Fin 2048) (n : ℕ) : EReal := if h : n < 32768 then maskedDist X M C ⟨n, h⟩ k else 0

/-- The column's sum over its first `j` tiles of 1024 nodes. -/
def tilesum (k : Fin 2048) (j : ℕ) : EReal := ∑ n ∈ Finset.range (1024 * j), distN X M C k n

theorem tilesum_zero (k : Fin 2048) : tilesum X M C k 0 = 0 := by
  unfold tilesum
  rw [Nat.mul_zero, Finset.range_zero, Finset.sum_empty]

/-- One more tile: the sum over `j + 1` tiles is the sum over `j` plus the sum of tile `j`'s 1024 cells. -/
theorem tilesum_succ (k : Fin 2048) (j : ℕ) (tile : Fin 1024 → EReal)
    (h : ∀ r : Fin 1024, tile r = distN X M C k (1024 * j + r.val)) :
    tilesum X M C k (j + 1) = tilesum X M C k j + ∑ r : Fin 1024, tile r := by
  unfold tilesum
  rw [Nat.mul_succ, Finset.sum_range_add, Finset.sum_range (fun x => distN X M C k (1024 * j + x))]
  exact congrArg _ (Finset.sum_congr rfl fun r _ => (h r).symm)

/-- All 32 tiles: the column sum. -/
theorem tilesum_full (k : Fin 2048) : tilesum X M C k 32 = colSum X M C k := by
  unfold tilesum colSum
  rw [show 1024 * 32 = 32768 from rfl, Finset.sum_range]
  refine Finset.sum_congr rfl fun n _ => ?_
  unfold distN
  rw [dif_pos n.isLt]

end Cert.CentroidSpec

end
-- ==== Proof.LibKeepdims.lean ====
/-
  Two layout operations read at an index given by coordinates, for the column a `keepdims` row reduction leaves:
  a vector `[a]` cast to the column `[a, 1]`, and a column `[a, 1]` broadcast along its unit axis to `[a, b]`.
  Both indices are written with the literal-size constructors `ix1`, `ix2`, so that each lemma applies to a printed
  operation by unification, as the library's leading-unit-axis forms of the same operations do.
-/
import Idealize.ShloMosaic.Lib.Pipeline.Value
import Idealize.ShloMosaic.Lib.ValueIdx

namespace Idealize.ShloMosaic.ValueIdx

open Idealize.ShloMosaic

variable {α : Type}

/-- An `[a]` array cast to the column `[a, 1]` reads, at `(i, u)`, the operand at `i`, whatever the unit
    coordinate `u`: both have row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ValueIdx
-- ==== Proof.KernelPayload.lean ====
/-
  The kernel body's arithmetic at the ideal instance, read index by index over the blocks it loads.

  Entry `(p, q)` of the [1024, 1024] tile the body computes is the specification's cell of row `p` of the node block,
  row `q` of the centroid block and entry `p` of the mask block: the two lane sums of squares are the cell's squared
  norms (the first kept as a column and broadcast along its row, the second laid as a row and broadcast down the
  columns), the matrix product into a zero accumulator contracts the feature axis of both blocks, so it is the inner
  product of the two rows (the change of float format before it is the identity on extended reals), and the rest is
  pointwise. The distance block stores that tile under a leading unit axis; the column-sum block stores, at column
  `q`, what it read back plus the sum of the tile's column `q` over its 1024 rows.
-/
import proofs.«108972_j59124519796877_1_alg».proof.Proof.Gen.KernelIdeal.Skeleton
import proofs.«108972_j59124519796877_1_alg».proof.Proof.Spec
import proofs.«108972_j59124519796877_1_alg».proof.Proof.LibKeepdims
import Idealize.ShloMosaic.Lib.ValueLayout
import Idealize.ShloMosaic.PureOps.Ideal.Laws

noncomputable section

namespace Cert.KernelIdeal.Hand

open Cert.KernelIdeal Cert.KernelIdeal.Gen Idealize.ShloMosaic Idealize.ShloMosaic.ValueIdx Cert.CentroidSpec

/-- A lane sum of squares over the feature axis, kept as a column and broadcast along the tile's rows: at `(p, q)` the
    squared norm of row `p`. -/
theorem rowSq_apply (v : FVec Ideal S1024x512 .f32) (p q : Fin 1024) :
    broadcastTo S1024x1024 (shapeCast S1024x1 (multiReduction .add [1] S1024 (mulf v v) 0x00000000#32 reduces_S1024x512_S1024 (.inl rfl) rfl) shapeCasts_S1024_S1024x1) broadcasts_S1024x1_S1024x1024 (ix2 p q)
      = sqNorm (fun d => v (ix2 p d)) := by
  refine (broadcastTo_a1_ab_apply _ _ p q).trans ?_
  refine (shapeCast_a_a1_apply _ _ p (0 : Fin 1)).trans ?_
  refine (Ideal.multiReduction_add_single (mulf v v) 0x00000000#32 reduces_S1024x512_S1024 (.inl rfl) rfl (ix1 p)).trans ?_
  unfold sqNorm
  refine Finset.sum_congr rfl fun d _ => ?_
  have e : reduces_S1024x512_S1024.lift (ix1 p) d = ix2 p d :=
    funext fun a => Fin.ext (by match a with | ⟨0, _⟩ => rfl | ⟨1, _⟩ => rfl)
  rw [e]
  rfl

/-- The same lane sum laid as a row and broadcast down the tile's columns: at `(p, q)` the squared norm of row `q`. -/
theorem colSq_apply (v : FVec Ideal S1024x512 .f32) (p q : Fin 1024) :
    broadcastTo S1024x1024 (shapeCast S1x1024 (multiReduction .add [1] S1024 (mulf v v) 0x00000000#32 reduces_S1024x512_S1024 (.inl rfl) rfl) shapeCasts_S1024_S1x1024) broadcasts_S1x1024_S1024x1024 (ix2 p q)
      = sqNorm (fun d => v (ix2 q d)) := by
  refine (broadcastTo_1b_ab_apply _ _ p q).trans ?_
  refine (shapeCast_a_1a_apply _ _ (0 : Fin 1) q).trans ?_
  refine (Ideal.multiReduction_add_single (mulf v v) 0x00000000#32 reduces_S1024x512_S1024 (.inl rfl) rfl (ix1 q)).trans ?_
  unfold sqNorm
  refine Finset.sum_congr rfl fun d _ => ?_
  have e : reduces_S1024x512_S1024.lift (ix1 q) d = ix2 q d :=
    funext fun a => Fin.ext (by match a with | ⟨0, _⟩ => rfl | ⟨1, _⟩ => rfl)
  rw [e]
  rfl

/-! The matrix product's operand indices: the left operand is read at (row of the output, contraction index), the right
    operand at (column of the output, contraction index). -/

theorem gram_lhs_0 (i : S1024x1024.Idx) (k : dot_S1024x512_S1024x512_S1024x1024_1_1_0_0_n_n.contr.Idx) :
    (dot_S1024x512_S1024x512_S1024x1024_1_1_0_0_n_n.lhsIdx i k 0).val = (i 0).val := by
  unfold DotDims.lhsIdx
  rw [dif_neg (show ¬(0 : Fin S1024x512.rank) ∈ dot_S1024x512_S1024x512_S1024x1024_1_1_0_0_n_n.lhsBatch by decide), dif_pos (show (0 : Fin S1024x512.rank) ∈ dot_S1024x512_S1024x512_S1024x1024_1_1_0_0_n_n.lhsNonContracting by decide)]
  rfl
theorem gram_lhs_1 (i : S1024x1024.Idx) (k : dot_S1024x512_S1024x512_S1024x1024_1_1_0_0_n_n.contr.Idx) :
    (dot_S1024x512_S1024x512_S1024x1024_1_1_0_0_n_n.lhsIdx i k 1).val = (k ⟨0, by decide⟩).val :=
  dot_S1024x512_S1024x512_S1024x1024_1_1_0_0_n_n.lhsIdx_val_of_single rfl i k
theorem gram_rhs_0 (i : S1024x1024.Idx) (k : dot_S1024x512_S1024x512_S1024x1024_1_1_0_0_n_n.contr.Idx) :
    (dot_S1024x512_S1024x512_S1024x1024_1_1_0_0_n_n.rhsIdx i k 0).val = (i 1).val := by
  unfold DotDims.rhsIdx
  rw [dif_neg (show ¬(0 : Fin S1024x512.rank) ∈ dot_S1024x512_S1024x512_S1024x1024_1_1_0_0_n_n.rhsBatch by decide), dif_pos (show (0 : Fin S1024x512.rank) ∈ dot_S1024x512_S1024x512_S1024x1024_1_1_0_0_n_n.rhsNonContracting by decide)]
  rfl
theorem gram_rhs_1 (i : S1024x1024.Idx) (k : dot_S1024x512_S1024x512_S1024x1024_1_1_0_0_n_n.contr.Idx) :
    (dot_S1024x512_S1024x512_S1024x1024_1_1_0_0_n_n.rhsIdx i k 1).val = (k ⟨0, by decide⟩).val :=
  dot_S1024x512_S1024x512_S1024x1024_1_1_0_0_n_n.rhsIdx_val_of_single rfl i k

/-- The matrix product of the two blocks (their formats narrowed first, which changes nothing here) into a zero
    accumulator: at `(p, q)` the inner product of row `p` of the first with row `q` of the second. -/
theorem gram_apply (a b : FVec Ideal S1024x512 .f32) (p q : Fin 1024) :
    matmul dot_S1024x512_S1024x512_S1024x1024_1_1_0_0_n_n none (truncf .bf16 a bitsLt_bf16_f32) (truncf .bf16 b bitsLt_bf16_f32) (constant S1024x1024 .f32 0x00000000#32) (ix2 p q)
      = rowDot (fun d => a (ix2 p d)) (fun d => b (ix2 q d)) := by
  simp only [matmul]
  rw [Ideal.matmul_constant_zero_apply, ← Equiv.sum_comp (contrEquiv1 dot_S1024x512_S1024x512_S1024x1024_1_1_0_0_n_n 512 rfl rfl).symm]
  unfold rowDot
  refine Finset.sum_congr rfl fun k _ => ?_
  have hk := contrEquiv1_symm_val dot_S1024x512_S1024x512_S1024x1024_1_1_0_0_n_n 512 rfl rfl k
  have el : dot_S1024x512_S1024x512_S1024x1024_1_1_0_0_n_n.lhsIdx (ix2 p q) ((contrEquiv1 dot_S1024x512_S1024x512_S1024x1024_1_1_0_0_n_n 512 rfl rfl).symm k) = ix2 p k := funext fun ax => Fin.ext (by
    match ax with
    | ⟨0, _⟩ => exact gram_lhs_0 _ _
    | ⟨1, _⟩ => exact (gram_lhs_1 _ _).trans hk)
  have er : dot_S1024x512_S1024x512_S1024x1024_1_1_0_0_n_n.rhsIdx (ix2 p q) ((contrEquiv1 dot_S1024x512_S1024x512_S1024x1024_1_1_0_0_n_n 512 rfl rfl).symm k) = ix2 q k := funext fun ax => Fin.ext (by
    match ax with
    | ⟨0, _⟩ => exact gram_rhs_0 _ _
    | ⟨1, _⟩ => exact (gram_rhs_1 _ _).trans hk)
  rw [el, er]
  rfl

/-- THE TILE: entry `(p, q)` is the cell of the node block's row `p`, the centroid block's row `q` and the mask
    block's entry `p`. -/
theorem tile_apply (x0 x1 : FVec Ideal S1024x512 .f32) (x2 : FVec Ideal S1024x1 .f32) (p q : Fin 1024) :
    k0_pay2 (F := Ideal) x0 x1 x2 (ix2 p q)
      = cell (fun d => x0 (ix2 p d)) (fun d => x1 (ix2 q d)) (x2 (ix2 p (0 : Fin 1))) := by
  unfold k0_pay2 cell
  exact congrArg₂ (· * ·)
    (congrArg Ideal.sqrt (congrArg₂ max
      (congrArg₂ (· - ·) (congrArg₂ (· + ·) (rowSq_apply x0 p q) (colSq_apply x1 p q))
        (congrArg (gramTwo * ·) (gram_apply x0 x1 p q)))
      rfl))
    (broadcastTo_a1_ab_apply x2 broadcasts_S1024x1_S1024x1024 p q)

/-- The distance block is the tile under a leading unit axis. -/
theorem distBlock_apply {F : FTy → Type} [FloatOps F] (x0 x1 : Vec F S1024x512 .f32) (x2 : Vec F S1024x1 .f32)
    (u : Fin 1) (p q : Fin 1024) : k0_pay3 x0 x1 x2 (ix3 u p q) = k0_pay2 x0 x1 x2 (ix2 p q) := by
  unfold k0_pay3
  exact shapeCast_ab_1ab_apply _ _ u p q

/-- The zero block of the reset is zero at every column. -/
theorem zeroBlock_apply (u : Fin 1) (q : Fin 1024) : k0_pay1 (F := Ideal) (ix2 u q) = 0 :=
  Ideal.ofBits_zero_f32

/-- The column-sum block: at column `q`, what was read back plus the sum of the tile's column `q` over its rows. -/
theorem sumBlock_apply (x0 x1 : FVec Ideal S1024x512 .f32) (x2 : FVec Ideal S1024x1 .f32) (acc : FVec Ideal S1x1024 .f32)
    (u : Fin 1) (q : Fin 1024) :
    k0_pay4 (F := Ideal) x0 x1 x2 acc (ix2 u q) = acc (ix2 u q) + ∑ r : Fin 1024, k0_pay2 (F := Ideal) x0 x1 x2 (ix2 r q) := by
  unfold k0_pay4
  have e : ∀ r : Fin 1024, reduces_S1024x1024_S1024.lift (ix1 q) r = ix2 r q := fun r =>
    funext fun a => Fin.ext (by match a with | ⟨0, _⟩ => rfl | ⟨1, _⟩ => rfl)
  exact congrArg₂ (· + ·) (congrFun (shapeCast_self acc shapeCasts_S1x1024_S1x1024) (ix2 u q))
    ((shapeCast_a_1a_apply _ shapeCasts_S1024_S1x1024 u q).trans
      ((Ideal.multiReduction_add_single (k0_pay2 (F := Ideal) x0 x1 x2) 0x00000000#32 reduces_S1024x1024_S1024 (.inl rfl) rfl (ix1 q)).trans
        (Finset.sum_congr rfl fun r _ => congrArg (k0_pay2 (F := Ideal) x0 x1 x2) (e r))))

end Cert.KernelIdeal.Hand

end
-- ==== Proof.KernelBlocks.lean ====
/-
  Where the pipeline's blocks sit in their arrays.

  The 64 grid points run centroid half by centroid half: point `t` works on node tile `t % 32` (1024 node rows) and
  centroid half `t / 32` (1024 centroid rows). The node and mask windows follow the node tile, the centroid window the
  centroid half, the distance window both, and the column-sum window the centroid half only. So entry `(p, d)` of the
  node block at point `t` is entry `(1024·(t % 32) + p, d)` of the node array, and likewise for the other two inputs.
-/
import proofs.«108972_j59124519796877_1_alg».proof.Proof.Gen.KernelIdeal.Frame
import Idealize.ShloMosaic.Lib.Pipeline.Value
import Idealize.ShloMosaic.Lib.ValueIdx

noncomputable section

open Idealize.ShloMosaic Idealize.ShloMosaic.TcCoe Idealize.SL.Sem

namespace Cert.KernelIdeal.Hand

open Cert.KernelIdeal Cert.KernelIdeal.Gen Idealize.ShloMosaic.ValueIdx

variable {F : FTy → Type} [FloatOps F]
variable (m : (ℓ : Loc nD τ sig) → Buf (Elt F) ℓ)

/-- The printed index maps, decided once over the grid: each window's block index at point `t` in terms of the node
    tile `t % 32` and the centroid half `t / 32`. -/
theorem idx_facts : ∀ t : Fin cfg0.N,
    win0_0.index t (0 : Fin 2) = t.val % 32 ∧ win0_0.index t (1 : Fin 2) = 0
    ∧ win0_1.index t (0 : Fin 2) = t.val / 32 ∧ win0_1.index t (1 : Fin 2) = 0
    ∧ win0_2.index t (0 : Fin 2) = t.val % 32 ∧ win0_2.index t (1 : Fin 2) = 0
    ∧ win0_3.index t (0 : Fin 3) = 0 ∧ win0_3.index t (1 : Fin 3) = t.val % 32 ∧ win0_3.index t (2 : Fin 3) = t.val / 32
    ∧ win0_4.index t (0 : Fin 2) = 0 ∧ win0_4.index t (1 : Fin 2) = t.val / 32 :=
  (by decide +kernel : ∀ t : Fin grid0.N, _)

/-- The node block at point `t`: its row `p` is row `1024·(t % 32) + p` of the node array. -/
theorem nodeBlk_apply (c : Dev nD) (t : Fin cfg0.N) (p : Fin 1024) (d : Fin 512) (n : Fin 32768)
    (hn : n.val = 1024 * (t.val % 32) + p.val) :
    (iblk m c 0 t : Vec F S1024x512 .f32) (ix2 p d) = m ((c : Thread nD τ).loc main_arg0) (ix2 n d) := by
  unfold iblk
  rw [View.read_apply]
  show V m c main_arg0 _ = V m c main_arg0 (ix2 n d)
  congr 1
  funext a
  apply Fin.ext
  obtain ⟨e0, e1, -⟩ := idx_facts t
  match a with
  | ⟨0, _⟩ => show win0_0.index t (0 : Fin 2) * 1024 + 1 * p.val = n.val; omega
  | ⟨1, _⟩ => show win0_0.index t (1 : Fin 2) * 512 + 1 * d.val = d.val; omega

/-- The centroid block at point `t`: its row `q` is row `1024·(t / 32) + q` of the centroid array. -/
theorem centBlk_apply (c : Dev nD) (t : Fin cfg0.N) (q : Fin 1024) (d : Fin 512) (k : Fin 2048)
    (hk : k.val = 1024 * (t.val / 32) + q.val) :
    (iblk m c 1 t : Vec F S1024x512 .f32) (ix2 q d) = m ((c : Thread nD τ).loc main_arg2) (ix2 k d) := by
  unfold iblk
  rw [View.read_apply]
  show V m c main_arg2 _ = V m c main_arg2 (ix2 k d)
  congr 1
  funext a
  apply Fin.ext
  obtain ⟨-, -, e0, e1, -⟩ := idx_facts t
  match a with
  | ⟨0, _⟩ => show win0_1.index t (0 : Fin 2) * 1024 + 1 * q.val = k.val; omega
  | ⟨1, _⟩ => show win0_1.index t (1 : Fin 2) * 512 + 1 * d.val = d.val; omega

/-- The mask block at point `t`: its entry `p` is entry `1024·(t % 32) + p` of the mask column. -/
theorem maskBlk_apply (c : Dev nD) (t : Fin cfg0.N) (p : Fin 1024) (n : Fin 32768)
    (hn : n.val = 1024 * (t.val % 32) + p.val) :
    (iblk m c 2 t : Vec F S1024x1 .f32) (ix2 p (0 : Fin 1)) = m ((c : Thread nD τ).loc main_arg1) (ix2 n (0 : Fin 1)) := by
  unfold iblk
  rw [View.read_apply]
  show V m c main_arg1 _ = V m c main_arg1 (ix2 n (0 : Fin 1))
  congr 1
  funext a
  apply Fin.ext
  obtain ⟨-, -, -, -, e0, e1, -⟩ := idx_facts t
  match a with
  | ⟨0, _⟩ => show win0_2.index t (0 : Fin 2) * 1024 + 1 * p.val = n.val; omega
  | ⟨1, _⟩ => show win0_2.index t (1 : Fin 2) * 1 + 1 * 0 = 0; omega

end Cert.KernelIdeal.Hand

end
-- ==== Proof.KernelInv.lean ====
/-
  What the two output blocks hold after each grid point, in the specification's terms.

  After point `t` (node tile `j = t % 32` of centroid half `t / 32`) the distance block holds the masked distances
  of the tile's 1024 nodes from the half's 1024 centroids, in both control cases: it depends on the point's input
  blocks only. The column-sum block is carried from point to point within a centroid half: at the half's first tile it
  holds zero plus that tile's column sums, at every later tile what the previous point left plus the tile's column
  sums. By induction on the point it therefore holds, at column `q`, the sum of centroid `1024·(t / 32) + q`'s column
  of masked distances over the first `j + 1` node tiles.
-/
import proofs.«108972_j59124519796877_1_alg».proof.Proof.KernelPieces
import proofs.«108972_j59124519796877_1_alg».proof.Proof.KernelPayload
import proofs.«108972_j59124519796877_1_alg».proof.Proof.KernelBlocks

noncomputable section

open Idealize.ShloMosaic Idealize.ShloMosaic.TcCoe Idealize.SL.Sem

namespace Cert.KernelIdeal.Hand

open Cert.KernelIdeal Cert.KernelIdeal.Gen Idealize.ShloMosaic.ValueIdx Cert.CentroidSpec

variable (m : (ℓ : Loc nD τ sig) → Buf (Elt Ideal) ℓ)

/-- The three argument arrays on core `c`, as the specification takes them. -/
abbrev nodeArr (c : Dev nD) : (⟨2, ![32768, 512]⟩ : Shape).Idx → EReal := m ((c : Thread nD τ).loc main_arg0)
abbrev maskArr (c : Dev nD) : (⟨2, ![32768, 1]⟩ : Shape).Idx → EReal := m ((c : Thread nD τ).loc main_arg1)
abbrev centArr (c : Dev nD) : (⟨2, ![2048, 512]⟩ : Shape).Idx → EReal := m ((c : Thread nD τ).loc main_arg2)

/-- The tile computed at point `t`, entry `(p, q)`: the masked distance of node `1024·(t % 32) + p` from centroid
    `1024·(t / 32) + q`. -/
theorem tileAt (c : Dev nD) (t : Fin cfg0.N) (p q : Fin 1024) (n : Fin 32768) (k : Fin 2048)
    (hn : n.val = 1024 * (t.val % 32) + p.val) (hk : k.val = 1024 * (t.val / 32) + q.val) :
    k0_pay2 (F := Ideal) (iblk m c 0 t) (iblk m c 1 t) (iblk m c 2 t) (ix2 p q)
      = maskedDist (nodeArr m c) (maskArr m c) (centArr m c) n k :=
  (tile_apply (iblk m c 0 t) (iblk m c 1 t) (iblk m c 2 t) p q).trans
    (cell_congr (fun d => nodeBlk_apply m c t p d n hn) (fun d => centBlk_apply m c t q d k hk) (maskBlk_apply m c t p n hn))

/-- THE DISTANCE BLOCK after point `t`. -/
theorem distAfter (c : Dev nD) (t : Fin cfg0.N) (u : Fin 1) (p q : Fin 1024) (n : Fin 32768) (k : Fin 2048)
    (hn : n.val = 1024 * (t.val % 32) + p.val) (hk : k.val = 1024 * (t.val / 32) + q.val) :
    (outsAt0 m c t.val t.isLt).1 (ix3 u p q) = maskedDist (nodeArr m c) (maskArr m c) (centArr m c) n k := by
  by_cases h0 : t.val % 32 = 0
  · rw [outsAt0_A m c t h0]
    dsimp only
    refine (congrFun (out_A_3 (F := Ideal) c (grid0.coords t) (ms0_0 t) (hs0_0 t) (ms0_1 t) (hs0_1 t) (ms0_2 t) (hs0_2 t) (ms0_3 t) (hs0_3 t) (ms0_4 t) (hs0_4 t) ((hcond0_0 t).mpr h0)
      (iblk m c 0 t) (iblk m c 1 t) (iblk m c 2 t)) (ix3 u p q)).trans ?_
    exact (distBlock_apply (iblk m c 0 t) (iblk m c 1 t) (iblk m c 2 t) u p q).trans (tileAt m c t p q n k hn hk)
  · rw [outsAt0_B m c t h0]
    dsimp only
    refine (congrFun (out_B_3 (F := Ideal) c (grid0.coords t) (ms0_0 t) (hs0_0 t) (ms0_1 t) (hs0_1 t) (ms0_2 t) (hs0_2 t) (ms0_3 t) (hs0_3 t) (ms0_4 t) (hs0_4 t) (fun h => h0 ((hcond0_0 t).mp h))
      (iblk m c 0 t) (iblk m c 1 t) (iblk m c 2 t) (outsAt0 m c (t.val - 1) (Nat.lt_of_le_of_lt (Nat.sub_le _ _) t.isLt)).2) (ix3 u p q)).trans ?_
    exact (distBlock_apply (iblk m c 0 t) (iblk m c 1 t) (iblk m c 2 t) u p q).trans (tileAt m c t p q n k hn hk)

/-- The column sums of the tile computed at point `t` are tile `t % 32`'s share of the centroid's column. -/
theorem tileColumn (c : Dev nD) (t : Fin cfg0.N) (q : Fin 1024) (k : Fin 2048) (hk : k.val = 1024 * (t.val / 32) + q.val)
    (r : Fin 1024) :
    k0_pay2 (F := Ideal) (iblk m c 0 t) (iblk m c 1 t) (iblk m c 2 t) (ix2 r q)
      = distN (nodeArr m c) (maskArr m c) (centArr m c) k (1024 * (t.val % 32) + r.val) := by
  have hN : t.val < 64 := lt_of_lt_of_eq t.isLt (show cfg0.N = 64 from N_0)
  have hr : r.val < 1024 := r.isLt
  have hlt : 1024 * (t.val % 32) + r.val < 32768 := by omega
  refine (tileAt m c t r q ⟨1024 * (t.val % 32) + r.val, hlt⟩ k rfl hk).trans ?_
  unfold distN
  rw [dif_pos hlt]

/-- THE COLUMN-SUM BLOCK after point `n`: at column `q` the centroid's column summed over node tiles `0 … n % 32`. -/
theorem sumAfter (c : Dev nD) : ∀ (n : ℕ) (h : n < cfg0.N) (u : Fin 1) (q : Fin 1024) (k : Fin 2048),
    k.val = 1024 * (n / 32) + q.val →
    (outsAt0 m c n h).2 (ix2 u q) = tilesum (nodeArr m c) (maskArr m c) (centArr m c) k (n % 32 + 1) := by
  intro n
  induction n with
  | zero =>
    intro h u q k hk
    have hA := outsAt0_A m c ⟨0, h⟩ rfl
    show (outsAt0 m c (⟨0, h⟩ : Fin cfg0.N).val (⟨0, h⟩ : Fin cfg0.N).isLt).2 (ix2 u q) = _
    rw [hA]
    dsimp only
    refine (congrFun (out_A_4 (F := Ideal) c (grid0.coords ⟨0, h⟩) (ms0_0 ⟨0, h⟩) (hs0_0 ⟨0, h⟩) (ms0_1 ⟨0, h⟩) (hs0_1 ⟨0, h⟩) (ms0_2 ⟨0, h⟩) (hs0_2 ⟨0, h⟩) (ms0_3 ⟨0, h⟩) (hs0_3 ⟨0, h⟩) (ms0_4 ⟨0, h⟩) (hs0_4 ⟨0, h⟩) ((hcond0_0 ⟨0, h⟩).mpr rfl)
      (iblk m c 0 ⟨0, h⟩) (iblk m c 1 ⟨0, h⟩) (iblk m c 2 ⟨0, h⟩)) (ix2 u q)).trans ?_
    refine (sumBlock_apply (iblk m c 0 ⟨0, h⟩) (iblk m c 1 ⟨0, h⟩) (iblk m c 2 ⟨0, h⟩) (k0_pay1 (F := Ideal)) u q).trans ?_
    rw [zeroBlock_apply u q, tilesum_succ (nodeArr m c) (maskArr m c) (centArr m c) k 0 _
      (fun r => tileColumn m c ⟨0, h⟩ q k hk r), tilesum_zero]
  | succ n ih =>
    intro h u q k hk
    have hN : n + 1 < 64 := lt_of_lt_of_eq h (show cfg0.N = 64 from N_0)
    by_cases h0 : (n + 1) % 32 = 0
    · have hA := outsAt0_A m c ⟨n + 1, h⟩ h0
      show (outsAt0 m c (⟨n + 1, h⟩ : Fin cfg0.N).val (⟨n + 1, h⟩ : Fin cfg0.N).isLt).2 (ix2 u q) = _
      rw [hA]
      dsimp only
      refine (congrFun (out_A_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) ((hcond0_0 ⟨n + 1, h⟩).mpr h0)
        (iblk m c 0 ⟨n + 1, h⟩) (iblk m c 1 ⟨n + 1, h⟩) (iblk m c 2 ⟨n + 1, h⟩)) (ix2 u q)).trans ?_
      refine (sumBlock_apply (iblk m c 0 ⟨n + 1, h⟩) (iblk m c 1 ⟨n + 1, h⟩) (iblk m c 2 ⟨n + 1, h⟩) (k0_pay1 (F := Ideal)) u q).trans ?_
      have hs := tilesum_succ (nodeArr m c) (maskArr m c) (centArr m c) k ((n + 1) % 32) _
        (fun r => tileColumn m c ⟨n + 1, h⟩ q k hk r)
      rw [hs, zeroBlock_apply u q, h0, tilesum_zero]
    · have hB := outsAt0_B m c ⟨n + 1, h⟩ h0
      show (outsAt0 m c (⟨n + 1, h⟩ : Fin cfg0.N).val (⟨n + 1, h⟩ : Fin cfg0.N).isLt).2 (ix2 u q) = _
      rw [hB]
      dsimp only
      refine (congrFun (out_B_4 (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (fun hh => h0 ((hcond0_0 ⟨n + 1, h⟩).mp hh))
        (iblk m c 0 ⟨n + 1, h⟩) (iblk m c 1 ⟨n + 1, h⟩) (iblk m c 2 ⟨n + 1, h⟩)
        (outsAt0 m c n (Nat.lt_of_succ_lt h)).2) (ix2 u q)).trans ?_
      refine (sumBlock_apply (iblk m c 0 ⟨n + 1, h⟩) (iblk m c 1 ⟨n + 1, h⟩) (iblk m c 2 ⟨n + 1, h⟩)
        (outsAt0 m c n (Nat.lt_of_succ_lt h)).2 u q).trans ?_
      have hk' : k.val = 1024 * (n / 32) + q.val := by omega
      have hs := tilesum_succ (nodeArr m c) (maskArr m c) (centArr m c) k ((n + 1) % 32) _
        (fun r => tileColumn m c ⟨n + 1, h⟩ q k hk r)
      have e : n % 32 + 1 = (n + 1) % 32 := by omega
      rw [hs, ih (Nat.lt_of_succ_lt h) u q k hk', e]

end Cert.KernelIdeal.Hand

end
-- ==== Proof.KernelFinal.lean ====
/-
  From blocks to arrays, and the kernel program's run read as values.

  Every point writes its distance block back, to block `(0, t % 32, t / 32)` of the [1, 32768, 2048] array, and those
  64 blocks tile the array: entry `(0, n, k)` lies in the block of the point with node tile `n / 1024` and centroid
  half `k / 1024`. So the array ends as the specification's distance array. The column-sum block is written back only
  after the last node tile of a centroid half (points 31 and 63), when it holds the column sums over all 32 tiles,
  which are the full column sums; the two blocks tile the [1, 2048] array. After the kernel region the host divides
  that array by the mask's total, broadcast along the centroids.
-/
import proofs.«108972_j59124519796877_1_alg».proof.Proof.KernelInv
import Idealize.ShloMosaic.Lib.StableHlo.Run

noncomputable section

open Idealize.ShloMosaic Idealize.ShloMosaic.TcCoe Idealize.SL.Sem Idealize.ShloMosaic.StableHlo

namespace Cert.KernelIdeal.Hand

open Cert.KernelIdeal Cert.KernelIdeal.Gen Idealize.ShloMosaic.ValueIdx Cert.CentroidSpec

variable (m : (ℓ : Loc nD τ sig) → Buf (Elt Ideal) ℓ) (ρ : Dev nD → PrngReg)

/-- WHAT POINT `t` WRITES BACK to the distance array is its block of the specification's distance array. -/
theorem distFlushed (c : Dev nD) (t : Fin cfg0.N) :
    (dats m 0 c).flushed 3 t
      = ((cfg0.win 3).blk t).view.read (Elt Ideal) (distArr (nodeArr m c) (maskArr m c) (centArr m c)) := by
  show (cfg0.win 3).cut (grid0.coords t) ((dats m 0 c).after 3 t) = _
  rw [after0_3]
  have hN : t.val < 64 := lt_of_lt_of_eq t.isLt (show cfg0.N = 64 from N_0)
  obtain ⟨-, -, -, -, -, -, d0, d1, d2, -, -⟩ := idx_facts t
  refine funext fun (j : S1x1024x1024.Idx) => ?_
  obtain ⟨u, p, q, rfl⟩ : ∃ (u : Fin 1) (p q : Fin 1024), j = ix3 u p q := ⟨j 0, j 1, j 2, eq_ix3 j⟩
  have hp : p.val < 1024 := p.isLt
  have hq : q.val < 1024 := q.isLt
  show (outsAt0 m c t.val t.isLt).1 (ix3 u p q)
    = distArr (nodeArr m c) (maskArr m c) (centArr m c) (((cfg0.win 3).blk t).view.emb (ix3 u p q))
  refine (distAfter m c t u p q ⟨1024 * (t.val % 32) + p.val, by omega⟩ ⟨1024 * (t.val / 32) + q.val, by omega⟩ rfl rfl).trans ?_
  unfold distArr
  exact congrArg₂ (maskedDist (nodeArr m c) (maskArr m c) (centArr m c))
    (Fin.ext (by show 1024 * (t.val % 32) + p.val = win0_3.index t (1 : Fin 3) * 1024 + 1 * p.val; omega))
    (Fin.ext (by show 1024 * (t.val / 32) + q.val = win0_3.index t (2 : Fin 3) * 1024 + 1 * q.val; omega))

/-- The column-sum array at an entry whose column is `k`. -/
theorem colSumArr_at (X : (⟨2, ![32768, 512]⟩ : Shape).Idx → EReal) (M : (⟨2, ![32768, 1]⟩ : Shape).Idx → EReal)
    (C : (⟨2, ![2048, 512]⟩ : Shape).Idx → EReal) (i : (⟨2, ![1, 2048]⟩ : Shape).Idx) (k : Fin 2048)
    (h : (i 1).val = k.val) : colSumArr X M C i = colSum X M C k := by
  unfold colSumArr
  exact congrArg (colSum X M C) (Fin.ext h)

/-- WHAT A WRITING POINT WRITES BACK to the column-sum array (after the last node tile of its centroid half) is its
    block of the specification's column sums. -/
theorem sumFlushed (c : Dev nD) (t : Fin cfg0.N) (hf : (cfg0.win 4).flush t = true) :
    (dats m 0 c).flushed 4 t
      = ((cfg0.win 4).blk t).view.read (Elt Ideal) (colSumArr (nodeArr m c) (maskArr m c) (centArr m c)) := by
  have h31 : t.val % 32 = 31 := (flush0_4 t).mp hf
  show (cfg0.win 4).cut (grid0.coords t) ((dats m 0 c).after 4 t) = _
  rw [after0_4]
  have hN : t.val < 64 := lt_of_lt_of_eq t.isLt (show cfg0.N = 64 from N_0)
  obtain ⟨-, -, -, -, -, -, -, -, -, f0, f1⟩ := idx_facts t
  generalize hG : colSumArr (nodeArr m c) (maskArr m c) (centArr m c) = G
  refine funext fun (j : S1x1024.Idx) => ?_
  obtain ⟨u, q, rfl⟩ : ∃ (u : Fin 1) (q : Fin 1024), j = ix2 u q := ⟨j 0, j 1, eq_ix2 j⟩
  have hq : q.val < 1024 := q.isLt
  show (outsAt0 m c t.val t.isLt).2 (ix2 u q) = G (((cfg0.win 4).blk t).view.emb (ix2 u q))
  subst hG
  refine (sumAfter m c t.val t.isLt u q ⟨1024 * (t.val / 32) + q.val, by omega⟩ rfl).trans ?_
  rw [h31]
  show tilesum _ _ _ _ 32 = _
  rw [tilesum_full]
  exact (colSumArr_at _ _ _ _ ⟨1024 * (t.val / 32) + q.val, by omega⟩
    (by show win0_4.index t (1 : Fin 2) * 1024 + 1 * q.val = 1024 * (t.val / 32) + q.val; omega)).symm

/-- Every entry of the distance array lies in the block of the point with its node tile and centroid half. -/
theorem distCover (i : S1x32768x2048.Idx) :
    ∃ t : Fin cfg0.N, (cfg0.win 3).flush t = true ∧ i ∈ ((cfg0.win 3).blk t).view.set := by
  have h0 : (i 0).val < 1 := (i 0).isLt
  have h1 : (i 1).val < 32768 := (i 1).isLt
  have h2 : (i 2).val < 2048 := (i 2).isLt
  have hlt : 32 * ((i 2).val / 1024) + (i 1).val / 1024 < cfg0.N := by rw [show cfg0.N = 64 from N_0]; omega
  refine ⟨⟨32 * ((i 2).val / 1024) + (i 1).val / 1024, hlt⟩, flush0_3 _, ?_⟩
  obtain ⟨-, -, -, -, -, -, d0, d1, d2, -, -⟩ := idx_facts ⟨32 * ((i 2).val / 1024) + (i 1).val / 1024, hlt⟩
  dsimp only at d0 d1 d2
  show i ∈ ((View.whole main_v0_0).slice (win0_3.rect ⟨32 * ((i 2).val / 1024) + (i 1).val / 1024, hlt⟩)).set
  rw [View.set_slice_whole, Rect.mem_set_unit]
  intro a
  match a with
  | ⟨0, _⟩ =>
    show win0_3.index ⟨32 * ((i 2).val / 1024) + (i 1).val / 1024, hlt⟩ (0 : Fin 3) * 1 ≤ (i 0).val
      ∧ (i 0).val < win0_3.index ⟨32 * ((i 2).val / 1024) + (i 1).val / 1024, hlt⟩ (0 : Fin 3) * 1 + 1
    omega
  | ⟨1, _⟩ =>
    show win0_3.index ⟨32 * ((i 2).val / 1024) + (i 1).val / 1024, hlt⟩ (1 : Fin 3) * 1024 ≤ (i 1).val
      ∧ (i 1).val < win0_3.index ⟨32 * ((i 2).val / 1024) + (i 1).val / 1024, hlt⟩ (1 : Fin 3) * 1024 + 1024
    omega
  | ⟨2, _⟩ =>
    show win0_3.index ⟨32 * ((i 2).val / 1024) + (i 1).val / 1024, hlt⟩ (2 : Fin 3) * 1024 ≤ (i 2).val
      ∧ (i 2).val < win0_3.index ⟨32 * ((i 2).val / 1024) + (i 1).val / 1024, hlt⟩ (2 : Fin 3) * 1024 + 1024
    omega

/-- Every entry of the column-sum array lies in the block written back after the last node tile of its centroid half. -/
theorem sumCover (i : S1x2048.Idx) :
    ∃ t : Fin cfg0.N, (cfg0.win 4).flush t = true ∧ i ∈ ((cfg0.win 4).blk t).view.set := by
  have h0 : (i 0).val < 1 := (i 0).isLt
  have h1 : (i 1).val < 2048 := (i 1).isLt
  have hlt : 32 * ((i 1).val / 1024) + 31 < cfg0.N := by rw [show cfg0.N = 64 from N_0]; omega
  refine ⟨⟨32 * ((i 1).val / 1024) + 31, hlt⟩, (flush0_4 _).mpr (by show (32 * ((i 1).val / 1024) + 31) % 32 = 31; omega), ?_⟩
  obtain ⟨-, -, -, -, -, -, -, -, -, f0, f1⟩ := idx_facts ⟨32 * ((i 1).val / 1024) + 31, hlt⟩
  dsimp only at f0 f1
  show i ∈ ((View.whole main_v0_1).slice (win0_4.rect ⟨32 * ((i 1).val / 1024) + 31, hlt⟩)).set
  rw [View.set_slice_whole, Rect.mem_set_unit]
  intro a
  match a with
  | ⟨0, _⟩ =>
    show win0_4.index ⟨32 * ((i 1).val / 1024) + 31, hlt⟩ (0 : Fin 2) * 1 ≤ (i 0).val
      ∧ (i 0).val < win0_4.index ⟨32 * ((i 1).val / 1024) + 31, hlt⟩ (0 : Fin 2) * 1 + 1
    omega
  | ⟨1, _⟩ =>
    show win0_4.index ⟨32 * ((i 1).val / 1024) + 31, hlt⟩ (1 : Fin 2) * 1024 ≤ (i 1).val
      ∧ (i 1).val < win0_4.index ⟨32 * ((i 1).val / 1024) + 31, hlt⟩ (1 : Fin 2) * 1024 + 1024
    omega

/-- The distance array after the run. -/
theorem distFinal (c : Dev nD) :
    (dats m 0 c).arrAt 3 cfg0.N = distArr (nodeArr m c) (maskArr m c) (centArr m c) :=
  (dats m 0 c).arrAt_eq_of_cover 3 (distArr (nodeArr m c) (maskArr m c) (centArr m c)) (fun t _ => distFlushed m c t) distCover

/-- The column-sum array after the kernel region. -/
theorem sumFinal (c : Dev nD) :
    (dats m 0 c).arrAt 4 cfg0.N = colSumArr (nodeArr m c) (maskArr m c) (centArr m c) :=
  (dats m 0 c).arrAt_eq_of_cover 4 (colSumArr (nodeArr m c) (maskArr m c) (centArr m c)) (sumFlushed m c) sumCover

/-- The mask's total, broadcast along the centroids, as the host computes it after the region. -/
def maskTotalRow (c : Dev nD) : Vec Ideal S1x2048 .f32 :=
  broadcastInDim S1x2048 ![] bcast_S_S1x2048
    (Host.reduceAdd (F := Ideal) (m ((c : Thread nD τ).loc main_arg1)) (constant (F := Ideal) S_ .f32 0x00000000#32) reducesTo_S32768x1_S_d0_1 h_S_)

theorem quot_rest : main_v3 ∈ Pipeline.restRefs sig (cfgs 0).spec := by decide

/-- The host's lines after the region leave, in the quotient result, the column sums over the mask's total. -/
theorem quotFinal (c : Dev nD) :
    Pipeline.afterTail₀ cfgs (dats m) 0 (V0 m) [hostOps1] c main_v3
      = Host.divf (F := Ideal) (φ := .f32) (colSumArr (nodeArr m c) (maskArr m c) (centArr m c)) (maskTotalRow m c) := by
  unfold Pipeline.afterTail₀ maskTotalRow
  show StableHlo.after hostOps1 _ (Proc.devRef .tc main_v3) = _
  after_results
  have e4 : Pipeline.withArrays (cfgs 0).spec c (V0 m c) (fun w => (dats m 0 c).arrAt w (cfgs 0).N) (Proc.devRef .tc main_v0_1)
      = colSumArr (nodeArr m c) (maskArr m c) (centArr m c) :=
    (Pipeline.withArrays_arr spec0 launch0.win.arr_inj c _ _ 4).trans (sumFinal m c)
  have e2 : Pipeline.withArrays (cfgs 0).spec c (V0 m c) (fun w => (dats m 0 c).arrAt w (cfgs 0).N) (Proc.devRef .tc main_arg1)
      = m ((c : Thread nD τ).loc main_arg1) :=
    (Pipeline.withArrays_arr spec0 launch0.win.arr_inj c _ _ 2).trans
      (((dats m 0 c).arrAt_in 2 rfl _).trans ((A_eq m c 2).trans (V_main_arg1 m c)))
  rw [e4, e2]

/-- THE RUN, READ: every weakly fair execution of the kernel program ends with the quotient result at the column sums
    over the mask's total, the distance array at the specification's, and the arguments as they were. -/
theorem run : θ_run defs (onTc (τ := τ) (main (F := Ideal))) ⟨m, fun _ => 0, ρ⟩ fun r => ∀ c : Dev nD,
      r.2.mem ((c.tc : Thread nD τ).loc main_v3)
        = Host.divf (F := Ideal) (φ := .f32) (colSumArr (nodeArr m c) (maskArr m c) (centArr m c)) (maskTotalRow m c)
      ∧ r.2.mem ((c.tc : Thread nD τ).loc main_v0_0) = distArr (nodeArr m c) (maskArr m c) (centArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c =>
    ⟨((h c).2 main_v3 quot_rest).trans (quotFinal m c),
      ((h c).1 3).trans (distFinal m c),
      ((h c).1 0).trans (((dats m 0 c).arrAt_in 0 rfl _).trans ((A_eq m c 0).trans (V_main_arg0 m c))),
      ((h c).1 2).trans (((dats m 0 c).arrAt_in 2 rfl _).trans ((A_eq m c 2).trans (V_main_arg1 m c))),
      ((h c).1 1).trans (((dats m 0 c).arrAt_in 1 rfl _).trans ((A_eq m c 1).trans (V_main_arg2 m c)))⟩)
    (run_main m ρ)

end Cert.KernelIdeal.Hand

end
-- ==== Proof.RefValue.lean ====
/-
  The reference's two results, read index by index, are the specification's arrays.

  Its distance array at `(0, n, k)` is the cell of node row `n` and centroid row `k`: the host's two row sums of
  squares and its `dot_general` are the cell's two squared norms and inner product (each host sum starts from the
  zero literal, which adds nothing), the floor and the factor `2` are the same literals, the host's square root is
  the same function of an extended real as the kernel's, and the mask enters through two broadcasts that read its
  entry of row `n`. Its second result divides, by the mask's total, the sum over the node axis of that array: each
  centroid's column sum.
-/
import proofs.«108972_j59124519796877_1_alg».proof.Proof.Gen.ReferenceIdeal.Read
import proofs.«108972_j59124519796877_1_alg».proof.Proof.Spec

noncomputable section

namespace Cert.ReferenceIdeal.RefValue

open Cert.ReferenceIdeal Cert.ReferenceIdeal.Read Idealize.ShloMosaic Idealize.ShloMosaic.ValueIdx Cert.CentroidSpec

variable (X : (⟨S32768x512, .f32⟩ : BufTy).Contents (Elt Ideal)) (M : (⟨S32768x1, .f32⟩ : BufTy).Contents (Elt Ideal))
  (C : (⟨S2048x512, .f32⟩ : BufTy).Contents (Elt Ideal))

/-- The reference's distance array at `(u, n, k)` is the cell of node `n` and centroid `k`. -/
theorem dist_apply (u : Fin 1) (n : Fin 32768) (k : Fin 2048) :
    val_main_v19 (F := Ideal) X M C (ix3 u n k) = maskedDist X M C n k := by
  have e1 : ∀ d : Fin 512, idx_main_v1 (idx_main_v2 (idx_main_v7 (idx_main_v16 (ix3 u n k)))) d = ix2 n d := fun d =>
    funext fun a => Fin.ext (by match a with | ⟨0, _⟩ => rfl | ⟨1, _⟩ => rfl)
  have e2 : ∀ d : Fin 512, idx_main_v4 (idx_main_v6 (idx_main_v8 (idx_main_v16 (ix3 u n k)))) d = ix2 k d := fun d =>
    funext fun a => Fin.ext (by match a with | ⟨0, _⟩ => rfl | ⟨1, _⟩ => rfl)
  have e3 : ∀ d : Fin 512, lidx_main_v5 (idx_main_v16 (ix3 u n k)) d = ix2 n d := fun d =>
    funext fun a => Fin.ext (by match a with | ⟨0, _⟩ => rfl | ⟨1, _⟩ => rfl)
  have e4 : ∀ d : Fin 512, ridx_main_v5 (idx_main_v16 (ix3 u n k)) d = ix2 k d := fun d =>
    funext fun a => Fin.ext (by match a with | ⟨0, _⟩ => rfl | ⟨1, _⟩ => rfl)
  have e5 : idx_main_v17 (idx_main_v18 (ix3 u n k)) = ix2 n (0 : Fin 1) :=
    funext fun a => Fin.ext (by match a with | ⟨0, _⟩ => rfl | ⟨1, _⟩ => rfl)
  rw [val_main_v19_apply, val_main_v16_apply, val_main_v15_apply, val_main_v14_apply, val_main_v12_apply,
    val_main_v9_apply, val_main_v7_apply, val_main_v2_apply, val_main_v1_apply, val_main_v8_apply, val_main_v6_apply,
    val_main_v4_apply, val_main_v11_apply, val_main_v10_apply, val_main_cst_1_apply, val_main_v5_apply,
    val_main_v13_apply, val_main_cst_2_apply, val_main_v18_apply, val_main_v17_apply]
  simp only [val_main_v0_apply, val_main_v3_apply, val_main_cst_apply, val_main_cst_0_apply, e1, e2, e3, e4, e5]
  unfold maskedDist cell sqNorm rowDot
  simp only [Ideal.mulf_def, Ideal.addf_def, Ideal.subf_def, Ideal.maximumf_def, Ideal.hostUnary_sqrt_def,
    Ideal.ofBits_def, Ideal.ofBits_zero_f32, zero_add]

/-- So the reference's first-listed array result is the specification's distance array. -/
theorem dist_eq : val_main_v19 (F := Ideal) X M C = distArr X M C := by
  funext i
  obtain ⟨u, n, k, rfl⟩ : ∃ (u : Fin 1) (n : Fin 32768) (k : Fin 2048), i = ix3 u n k := ⟨i 0, i 1, i 2, eq_ix3 i⟩
  exact dist_apply X M C u n k

/-- The reference's sum over the node axis at `(u, k)` is centroid `k`'s column sum. -/
theorem colSum_apply (u : Fin 1) (k : Fin 2048) : val_main_v20 (F := Ideal) X M C (ix2 u k) = colSum X M C k := by
  have e : ∀ n : Fin 32768, idx_main_v20 (ix2 u k) n = ix3 u n k := fun n =>
    funext fun a => Fin.ext (by match a with | ⟨0, _⟩ => rfl | ⟨1, _⟩ => rfl | ⟨2, _⟩ => rfl)
  rw [val_main_v20_apply]
  simp only [val_main_cst_3_apply, e, dist_apply]
  unfold colSum
  simp only [Ideal.ofBits_def, Ideal.ofBits_zero_f32, zero_add]

theorem colSum_eq : val_main_v20 (F := Ideal) X M C = colSumArr X M C := by
  funext i
  obtain ⟨u, k, rfl⟩ : ∃ (u : Fin 1) (k : Fin 2048), i = ix2 u k := ⟨i 0, i 1, eq_ix2 i⟩
  exact colSum_apply X M C u k

/-- The reference's quotient result: the column sums over the mask's total, the total left as the host computes it. -/
theorem quot_eq : val_main_v23 (F := Ideal) X M C = Host.divf (F := Ideal) (φ := .f32) (colSumArr X M C) (val_main_v22 (F := Ideal) M) := by
  unfold val_main_v23
  rw [colSum_eq]

end Cert.ReferenceIdeal.RefValue

end
-- ==== Proof.lean ====
/-
  Centroid distances by the Gram identity, tiled over nodes and centroids, against the same formula on whole arrays.

  Both programs take node features [32768, 512], a node mask [32768, 1] and centroid features [2048, 512], and return
  (second listed) the array of masked distances `sqrt(max(|x|² + |c|² − 2·⟨x, c⟩, ε)) · mask` of every node from every
  centroid and (first listed) each centroid's column of that array summed over the nodes and divided by the mask's
  total. The kernel program computes the distances tile by tile, 1024 nodes by 1024 centroids, with the inner products
  from a matrix product of format-narrowed blocks, and accumulates each centroid's column sum over the 32 node tiles of
  its half in a block it carries from tile to tile; the host then divides by the mask's total. The reference computes
  everything on whole arrays.

  Over the extended reals the two agree entry by entry. A tile's entry is the reference's entry because every
  operation of the formula is the same function on both sides (a change of float format is the identity, a matrix
  product into zero and a lane sum are plain sums, the two square roots are one function) and a block's entry is its
  array's entry at the tile's offset. A column sum accumulated tile by tile from zero is the sum over all nodes by
  commutativity and associativity of addition alone, so no entry need be finite for it; and the final division is the
  same division by the same mask total on both sides. The precondition is therefore never opened.

  The frames: the two kernel programs' are the generated frames; the reference's is its generated run with the results
  dropped. The idealization rewrote nothing, so `preserves` has nothing to state.
-/
import proofs.«108972_j59124519796877_1_alg».proof.Defs
import proofs.«108972_j59124519796877_1_alg».proof.Proof.Gen.Kernel
import proofs.«108972_j59124519796877_1_alg».proof.Proof.Gen.Kernel.Skeleton
import proofs.«108972_j59124519796877_1_alg».proof.Proof.Gen.Kernel.Launch
import proofs.«108972_j59124519796877_1_alg».proof.Proof.Gen.Kernel.Points
import proofs.«108972_j59124519796877_1_alg».proof.Proof.Gen.Kernel.Frame
import proofs.«108972_j59124519796877_1_alg».proof.Proof.Gen.KernelIdeal
import proofs.«108972_j59124519796877_1_alg».proof.Proof.Gen.KernelIdeal.Skeleton
import proofs.«108972_j59124519796877_1_alg».proof.Proof.Gen.KernelIdeal.Launch
import proofs.«108972_j59124519796877_1_alg».proof.Proof.Gen.KernelIdeal.Points
import proofs.«108972_j59124519796877_1_alg».proof.Proof.Gen.KernelIdeal.Frame
import proofs.«108972_j59124519796877_1_alg».proof.Proof.Gen.ReferenceIdeal
import proofs.«108972_j59124519796877_1_alg».proof.Proof.Gen.ReferenceIdeal.Run
import proofs.«108972_j59124519796877_1_alg».proof.Proof.Gen.ReferenceIdeal.Read
import proofs.«108972_j59124519796877_1_alg».proof.Proof.Gen.Pre_finite_inputs
import proofs.«108972_j59124519796877_1_alg».proof.Proof.KernelFinal
import proofs.«108972_j59124519796877_1_alg».proof.Proof.RefValue
import Idealize.ShloMosaic.Adequacy
import Idealize.ShloMosaic.Init

noncomputable section

namespace Cert.Proof

open Idealize.ShloMosaic Idealize.SL.Sem Cert.CentroidSpec Cert.KernelIdeal.Hand

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From arguments that agree, the kernel program ends with its quotient result at the column sums over the mask's
    total and its distance array at the specification's; the reference's two results are the same two arrays of its own
    arguments, its mask total the same host term. -/
theorem algebraic : Cert.algebraic_KernelIdeal_ReferenceIdeal := by
  intro m ρ m' ρ' _ hagree
  refine ⟨fun c => Host.divf (F := Ideal) (φ := .f32) (colSumArr (nodeArr m c) (maskArr m c) (centArr m c)) (maskTotalRow m c),
    fun c => distArr (nodeArr m c) (maskArr m c) (centArr m c), Cert.KernelIdeal.Hand.run m ρ, ?_⟩
  refine (θ_run Cert.ReferenceIdeal.defs _ _).mono (fun _ h c => ?_) (Cert.ReferenceIdeal.Value.run (F := Ideal) m' ρ')
  obtain ⟨h23, h19, hargs⟩ := h c
  obtain ⟨a0, a1, a2⟩ := hagree c
  refine ⟨h23.trans ?_, h19.trans ?_, hargs⟩
  · rw [Cert.ReferenceIdeal.Read.val_main_v23_eq, Cert.ReferenceIdeal.RefValue.quot_eq, a0, a1, a2]
    rfl
  · rw [Cert.ReferenceIdeal.Read.val_main_v19_eq, Cert.ReferenceIdeal.RefValue.dist_eq, a0, a1, a2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
